-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S32 : Shape := ⟨1, ![32]⟩
abbrev S16x1048576 : Shape := ⟨2, ![16, 1048576]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S16x1048576 : S_.BroadcastsInDim S16x1048576 (![] : Fin 0 → Fin S16x1048576.rank)
  reducesTo_S16x1048576_S_d0_1 : S16x1048576.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S32x1024x1024 .f32) (main_arg1 : IVec S32 32) (main_arg2 : FVec F S16x1048576 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S16x1048576 .f32 := Host.absf main_arg2
  let main_cst_0 : FVec F S_ .f32 := constant S_ .f32 0x7F800000#32
  let main_v5 : FVec F S16x1048576 .f32 := broadcastInDim S16x1048576 ![] bcast_S_S16x1048576 main_cst_0
  let main_v6 : IVec S16x1048576 1 := cmpf .olt main_v4 main_v5
  let main_c_1 : IVec S_ 1 := constantI S_ 1 1#1
  let main_v7 : IVec S_ 1 := (fun x v => Host.reduce IntOp.andi x v reducesTo_S16x1048576_S_d0_1 h_S_) main_v6 main_c_1
  let main_v8 : IVec S_ 1 := andi main_v3 main_v7
  let main_c_2 : IVec S_ 32 := constantI S_ 32 0#32
  let main_v9 : IVec S32 32 := broadcastInDim S32 ![] bcast_S_S32 main_c_2
  let main_v10 : IVec S32 1 := cmpi .sge main_arg1 main_v9
  let main_c_3 : IVec S_ 1 := constantI S_ 1 1#1
  let main_v11 : IVec S_ 1 := (fun x v => Host.reduce IntOp.andi x v reducesTo_S32_S_d0 h_S_) main_v10 main_c_3
  let main_v12 : IVec S_ 1 := andi main_v8 main_v11
  let main_c_4 : IVec S_ 32 := constantI S_ 32 16#32
  let main_v13 : IVec S32 32 := broadcastInDim S32 ![] bcast_S_S32 main_c_4
  let main_v14 : IVec S32 1 := cmpi .slt main_arg1 main_v13
  let main_c_5 : IVec S_ 1 := constantI S_ 1 1#1
  let main_v15 : IVec S_ 1 := (fun x v => Host.reduce IntOp.andi x v reducesTo_S32_S_d0 h_S_) main_v14 main_c_5
  fn_part1 (F := F) main_v12 main_v15
-- ==== Kernel.lean ====
abbrev S32x1024x1024 : Shape := ⟨3, ![32, 1024, 1024]⟩
abbrev S32 : Shape := ⟨1, ![32]⟩
abbrev S16x1048576 : Shape := ⟨2, ![16, 1048576]⟩
abbrev S_ : Shape := ⟨0, ![]⟩
abbrev S32x1 : Shape := ⟨2, ![32, 1]⟩
abbrev S16x1024x1024 : Shape := ⟨3, ![16, 1024, 1024]⟩
abbrev S1x1024x1024 : Shape := ⟨3, ![1, 1024, 1024]⟩
abbrev S1 : Shape := ⟨1, ![1]⟩
abbrev S1024x1024 : Shape := ⟨2, ![1024, 1024]⟩

abbrev nBuf : Space → Nat
  | .hbm => 23
  | .vmem => 6
  | .smem => 2
  | _ => 0

abbrev bufTy : (tb : Table) → Fin (tcTables nBuf tb) → BufTy
  | .hbm, ⟨0, _⟩ => ⟨S32x1024x1024, .f32⟩
  | .hbm, ⟨1, _⟩ => ⟨S32, .i32⟩
  | .hbm, ⟨2, _⟩ => ⟨S16x1048576, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S32, .i32⟩
  | .hbm, ⟨12, _⟩ => ⟨S32, .i32⟩
  | .hbm, ⟨13, _⟩ => ⟨S_, .i32⟩
  | .hbm, ⟨14, _⟩ => ⟨S32, .i32⟩
  | .hbm, ⟨15, _⟩ => ⟨S32, .i1⟩
  | .hbm, ⟨16, _⟩ => ⟨S_, .i32⟩
  | .hbm, ⟨17, _⟩ => ⟨S32, .i32⟩
  | .hbm, ⟨18, _⟩ => ⟨S32, .i32⟩
  | .hbm, ⟨19, _⟩ => ⟨S32, .i32⟩
  | .hbm, ⟨20, _⟩ => ⟨S32x1, .i32⟩
  | .hbm, ⟨21, _⟩ => ⟨S16x1024x1024, .f32⟩
  | .hbm, ⟨22, _⟩ => ⟨S32x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .smem, ⟨0, _⟩ => ⟨S32, .i32⟩
  | .local _ .smem, ⟨1, _⟩ => ⟨S32, .i32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_call1_v0 : Ref sig .tc := ⟨.hbm, 11, rfl⟩
abbrev main_call1_v1_0 : Ref sig .tc := ⟨.hbm, 12, rfl⟩
abbrev main_c_1 : Ref sig .tc := ⟨.hbm, 13, rfl⟩
abbrev main_v2 : Ref sig .tc := ⟨.hbm, 14, rfl⟩
abbrev main_v3 : Ref sig .tc := ⟨.hbm, 15, rfl⟩
abbrev main_c_2 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v9 : Ref sig .tc := ⟨.hbm, 21, rfl⟩
abbrev main_v10 : Ref sig .tc := ⟨.hbm, 22, rfl⟩
abbrev main_v1 : Ref sig .tc := ⟨.smem, 0, rfl⟩
abbrev main_v8 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

abbrev pre0 : Pipeline.Prefetch sig := ⟨2, ![main_v1.idx, main_v8.idx], fun | 0 => main_v1.names | 1 => main_v8.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v2 : Index := Scalar.indexCast v1
  ![v2.toNat]
def cc0_transform_0 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let v2 : Index := Scalar.indexCast v1
  let v3 : BitVec 32 := pf.at 0 (Rect.unit (s := S32) ![v2.toNat] S1.size (k0_off1_inb i)) numel1_S1
  let c0_i32 : BitVec 32 := 0#32
  let c0_i32_0 : BitVec 32 := 0#32
  let c0_i32_1 : BitVec 32 := 0#32
  ![v3.toNat, c0_i32.toNat, c0_i32_0.toNat]

def cc0_transform_1 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let v2 : Index := Scalar.indexCast v1
  let v3 : BitVec 32 := pf.at 1 (Rect.unit (s := S32) ![v2.toNat] S1.size (k0_off1_inb i)) numel1_S1
  let c0_i32 : BitVec 32 := 0#32
  let c0_i32_0 : BitVec 32 := 0#32
  let c0_i32_1 : BitVec 32 := 0#32
  ![v3.toNat, c0_i32.toNat, c0_i32_0.toNat]

def cc0_transform_2 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let v2 : Index := Scalar.indexCast v1
  let v3 : BitVec 32 := pf.at 0 (Rect.unit (s := S32) ![v2.toNat] S1.size (k0_off1_inb i)) numel1_S1
  let c0_i32 : BitVec 32 := 0#32
  let c0_i32_0 : BitVec 32 := 0#32
  let c0_i32_1 : BitVec 32 := 0#32
  ![v3.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S32 : S_.BroadcastsInDim S32 (![] : Fin 0 → Fin S32.rank)
  bcast_S32_S32x1_0 : S32.BroadcastsInDim S32x1 (![0] : Fin 1 → Fin S32x1.rank)
  shapeCasts_S16x1048576_S16x1024x1024 : S16x1048576.ShapeCasts S16x1024x1024
  numel1_S1 : S1.numel = 1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  gather_S32_S32x1_S32_n_0_n_n_0_1_1_wf : GatherDims.WF S32 S32x1 S32 [] [0] [] [0] [] 1 ![1]
  dot_S1024x1024_S1024x1024_S1024x1024_1_1_0_0_n_n_wf : DotDims.WF S1024x1024 S1024x1024 S1024x1024 [1] [1] [0] [0] [] []
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'

variable [Facts₀]

def comparator_i32_i32_d0 : BitVec 32 × BitVec 32 → BitVec 32 × BitVec 32 → BitVec 1 :=
  fun l r =>
    let v2 := IntOp.cmpi .slt l.1 r.1
    v2
def gather_S32_S32x1_S32_n_0_n_n_0_1_1 : GatherDims S32 S32x1 S32 where
  offsetDims := []
  collapsedSliceDims := [0]
  operandBatchingDims := []
  startIndicesBatchingDims := []
  startIndexMap := [0]
  indexVectorDim := 1
  sliceSizes := ![1]
  wf := gather_S32_S32x1_S32_n_0_n_n_0_1_1_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev spec0_0 : Pipeline.WinSpec sig grid0.rank :=
  Pipeline.WinSpec.ofSpec (Memref.whole main_arg0) S1x1024x1024.size reads0_0 false false 2 stage0_0 sem0_0 nbuf0_0 hstage0_0

abbrev spec0_1 : Pipeline.WinSpec sig grid0.rank :=
  Pipeline.WinSpec.ofSpec (Memref.whole main_v9) S1x1024x1024.size reads0_1 false false 2 stage0_1 sem0_1 nbuf0_1 hstage0_1

abbrev spec0_2 : Pipeline.WinSpec sig grid0.rank :=
  Pipeline.WinSpec.ofSpec (Memref.whole main_v10) S1x1024x1024.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | ⟨_ + 3, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1024x1024.size a ≤ S32x1024x1024.size a), EltTy.bits .f32 = 32 ∨ (Rect.block (s := S32x1024x1024) S1x1024x1024.size (cc0_transform_0 k0_off1_inb numel1_S1 pf i) h).WholeWords (EltTy.packing .f32)) ∧
  (∀ i : grid0.Coords, ∃ h : (∀ a, (cc0_transform_1 k0_off1_inb numel1_S1 pf i a + 1) * S1x1024x1024.size a ≤ S16x1024x1024.size a), EltTy.bits .f32 = 32 ∨ (Rect.block (s := S16x1024x1024) S1x1024x1024.size (cc0_transform_1 k0_off1_inb numel1_S1 pf i) h).WholeWords (EltTy.packing .f32)) ∧
  (∀ i : grid0.Coords, ∃ h : (∀ a, (cc0_transform_2 k0_off1_inb numel1_S1 pf i a + 1) * S1x1024x1024.size a ≤ S32x1024x1024.size a), EltTy.bits .f32 = 32 ∨ (Rect.block (s := S32x1024x1024) S1x1024x1024.size (cc0_transform_2 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2 i).elim fun h _ => h a | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2 i).elim fun _ h => h | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S32x1024x1024 : Shape := ⟨3, ![32, 1024, 1024]⟩
abbrev S32 : Shape := ⟨1, ![32]⟩
abbrev S16x1048576 : Shape := ⟨2, ![16, 1048576]⟩
abbrev S_ : Shape := ⟨0, ![]⟩
abbrev S32x1 : Shape := ⟨2, ![32, 1]⟩
abbrev S32x1048576 : Shape := ⟨2, ![32, 1048576]⟩

abbrev nBuf : Space → Nat
  | .hbm => 14
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32, .i32⟩
  | .hbm, ⟨2, _⟩ => ⟨S16x1048576, .f32⟩
  | .hbm, ⟨3, _⟩ => ⟨S_, .i32⟩
  | .hbm, ⟨4, _⟩ => ⟨S32, .i32⟩
  | .hbm, ⟨5, _⟩ => ⟨S32, .i1⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S32, .i32⟩
  | .hbm, ⟨10, _⟩ => ⟨S32x1, .i32⟩
  | .hbm, ⟨11, _⟩ => ⟨S32x1048576, .f32⟩
  | .hbm, ⟨12, _⟩ => ⟨S32x1024x1024, .f32⟩
  | .hbm, ⟨13, _⟩ => ⟨S32x1024x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S_S32 : S_.BroadcastsInDim S32 (![] : Fin 0 → Fin S32.rank)
  bcast_S32_S32x1_0 : S32.BroadcastsInDim S32x1 (![0] : Fin 1 → Fin S32x1.rank)
  shapeCasts_S32x1048576_S32x1024x1024 : S32x1048576.ShapeCasts S32x1024x1024
  gather_S16x1048576_S32x1_S32x1048576_1_0_n_n_0_1_11048576_wf : GatherDims.WF S16x1048576 S32x1 S32x1048576 [1] [0] [] [0] [] 1 ![1, 1048576]
  dot_S32x1024x1024_S32x1024x1024_S32x1024x1024_2_2_1_1_0_0_wf : DotDims.WF S32x1024x1024 S32x1024x1024 S32x1024x1024 [2] [2] [1] [1] [0] [0]

variable [Facts₀]

def gather_S16x1048576_S32x1_S32x1048576_1_0_n_n_0_1_11048576 : GatherDims S16x1048576 S32x1 S32x1048576 where
  offsetDims := [1]
  collapsedSliceDims := [0]
  operandBatchingDims := []
  startIndicesBatchingDims := []
  startIndexMap := [0]
  indexVectorDim := 1
  sliceSizes := ![1, 1048576]
  wf := gather_S16x1048576_S32x1_S32x1048576_1_0_n_n_0_1_11048576_wf
def dot_S32x1024x1024_S32x1024x1024_S32x1024x1024_2_2_1_1_0_0 : DotDims S32x1024x1024 S32x1024x1024 S32x1024x1024 where
  lhsContracting := [2]
  rhsContracting := [2]
  lhsNonContracting := [1]
  rhsNonContracting := [1]
  lhsBatch := [0]
  rhsBatch := [0]
  wf := dot_S32x1024x1024_S32x1024x1024_S32x1024x1024_2_2_1_1_0_0_wf

class Facts : Prop extends Facts₀ where

variable [Facts]
-- ==== Proof.PreRange.lean ====
/-
  The integer part of the precondition, decoded, and four facts about 32-bit words.

  The precondition's last two conjuncts say, of every task id t, that 0 ≤ t and t < 16 as signed words. A word that is
  non-negative signed has its top bit clear, so it reads the same signed and unsigned, and the second comparison is
  then one of values: t < 16 unsigned. On such a word the clip to [0, 15], the wrap of a negative index by 16 and the
  clamp of the signed reading into [0, 15] all do nothing.
-/
import proofs.«413383_j1623497638479_3_alg».proof.Proof.Gen.Pre_finite_inputs
import Idealize.ShloMosaic.Lib.ReduceAll
import Idealize.ShloMosaic.Lib.ValueIdx
import Idealize.ShloMosaic.Lib.StableHlo.Predicate

noncomputable section

namespace Cert.Proof.PreRange

open Idealize.ShloMosaic Cert.Pre_finite_inputs

/-! ## Words -/

/-- A word below 16 is below 2³¹: its signed and unsigned readings agree. -/
theorem toInt_of_lt16 (w : BitVec 32) (h : w.toNat < 16) : w.toInt = w.toNat :=
  StableHlo.Predicate.toInt_eq_toNat_of_lt (by omega)

/-- A word that is non-negative signed is below 2³¹ unsigned. -/
theorem toNat_lt_of_sge_zero (w : BitVec 32) (h0 : IntOp.cmpi .sge w 0#32 = 1#1) : w.toNat < 2 ^ 31 := by
  unfold IntOp.cmpi at h0
  have hs : (0#32 : BitVec 32).sle w = true := (StableHlo.Predicate.ofBool_eq_one_iff _).1 h0
  have hle : (0#32 : BitVec 32).toInt ≤ w.toInt := by simpa [BitVec.sle] using hs
  have hz : (0#32 : BitVec 32).toInt = 0 := by decide
  rw [hz, BitVec.toInt_eq_toNat_cond] at hle
  have hw := w.isLt
  by_contra hc
  rw [if_neg (by omega)] at hle
  omega

/-- A word in [0, 16) signed is below 16 unsigned. -/
theorem toNat_lt16 (w : BitVec 32) (h0 : IntOp.cmpi .sge w 0#32 = 1#1) (h1 : IntOp.cmpi .slt w 16#32 = 1#1) :
    w.toNat < 16 :=
  (StableHlo.Predicate.slt_iff_toNat (toNat_lt_of_sge_zero w h0) (by decide)).1 h1

/-- The maximum with 0 of a word below 16 is the word. -/
theorem maxsi_zero (w : BitVec 32) (h : w.toNat < 16) : IntOp.maxsi 0#32 w = w := by
  have hti := toInt_of_lt16 w h
  have hz : (0#32 : BitVec 32).toInt = 0 := by decide
  unfold IntOp.maxsi
  split
  · next hc =>
    -- w < 0 signed cannot be: w reads as its value
    simp only [BitVec.slt, hti, hz, decide_eq_true_eq] at hc
    omega
  · rfl

/-- The minimum of 15 with a word below 16 is the word. -/
theorem minsi_fifteen (w : BitVec 32) (h : w.toNat < 16) : IntOp.minsi 15#32 w = w := by
  have hti := toInt_of_lt16 w h
  have hf : (15#32 : BitVec 32).toInt = 15 := by decide
  unfold IntOp.minsi
  split
  · next hc =>
    -- 15 < w and w < 16 cannot both be
    simp only [BitVec.slt, hti, hf, decide_eq_true_eq] at hc
    omega
  · rfl

/-- The clip to [0, 15] is the identity on a word below 16. -/
theorem clip_id (w : BitVec 32) (h : w.toNat < 16) : IntOp.minsi 15#32 (IntOp.maxsi 0#32 w) = w := by
  rw [maxsi_zero w h, minsi_fifteen w h]

/-- The clip to [0, 15] always lands below 16. -/
theorem clip_lt (w : BitVec 32) : (IntOp.minsi 15#32 (IntOp.maxsi 0#32 w)).toNat < 16 := by
  have hz : (0#32 : BitVec 32).toInt = 0 := by decide
  have hf : (15#32 : BitVec 32).toInt = 15 := by decide
  -- the inner maximum v is 0 or w, and in either case is non-negative signed
  obtain ⟨v, hv, hv0⟩ : ∃ v : BitVec 32, IntOp.maxsi 0#32 w = v ∧ 0 ≤ v.toInt := by
    unfold IntOp.maxsi
    split
    · exact ⟨_, rfl, by rw [hz]⟩
    · next hc =>
      simp only [BitVec.slt, hz, decide_eq_true_eq, not_lt] at hc
      exact ⟨_, rfl, hc⟩
  rw [hv]
  -- a non-negative signed word reads as its value
  have hvi : v.toInt = v.toNat := by
    have hw := v.isLt
    rw [BitVec.toInt_eq_toNat_cond] at hv0 ⊢
    by_cases hc : 2 * v.toNat < 2 ^ 32
    · rw [if_pos hc]
    · rw [if_neg hc] at hv0; omega
  unfold IntOp.minsi
  split
  · decide
  · next hc =>
    simp only [BitVec.slt, hf, hvi, decide_eq_true_eq, not_lt] at hc
    omega

/-- The negative-index wrap is the identity on a word below 16. -/
theorem wrap_id (w : BitVec 32) (h : w.toNat < 16) :
    Scalar.select (IntOp.cmpi .slt w 0#32) (IntOp.addi w 16#32) w = w := by
  have hti := toInt_of_lt16 w h
  have hz : (0#32 : BitVec 32).toInt = 0 := by decide
  have hc : IntOp.cmpi .slt w 0#32 ≠ 1 := by
    unfold IntOp.cmpi
    intro e
    have hs : w.slt 0#32 = true := (StableHlo.Predicate.ofBool_eq_one_iff _).1 e
    simp only [BitVec.slt, hti, hz, decide_eq_true_eq] at hs
    omega
  unfold Scalar.select
  rw [if_neg hc]

/-- Reading a word below 16 signed and clamping into [0, 15] gives the word. -/
theorem clamp_id (w : BitVec 32) (h : w.toNat < 16) : min w.toInt.toNat 15 = w.toNat := by
  rw [toInt_of_lt16 w h, Int.toNat_natCast]
  omega

/-! ## The precondition -/

/-- The scalar shape has one index. -/
local instance : Subsingleton S_.Idx := ⟨fun a b => funext fun d => d.elim0⟩

/-- Under the precondition every task id is in [0, 16): as an unsigned word it is below 16. -/
theorem lt16_of_pre [Cert.Pre_finite_inputs.Facts] (x0 : FVec Ideal S32x1024x1024 .f32) (x1 : IVec S32 32)
    (x2 : FVec Ideal S16x1048576 .f32)
    (h : Cert.Pre_finite_inputs.fn (F := Ideal) x0 x1 x2 = fun _ => 1#1) (j : S32.Idx) : (x1 j).toNat < 16 := by
  have e := congrFun h ValueIdx.ix0
  dsimp only [Cert.Pre_finite_inputs.fn, Cert.Pre_finite_inputs.fn_part1] at e
  -- the predicate is a conjunction of four; the last two speak of the task ids
  obtain ⟨e3, hlt⟩ := IntOp.andi_eq_one.1 e
  obtain ⟨-, hge⟩ := IntOp.andi_eq_one.1 e3
  -- each is a reduction by "and" over every axis: it holds at every index
  have hge' := Host.reduce_andi_all _ _ _ _ _ hge j
  have hlt' := Host.reduce_andi_all _ _ _ _ _ hlt j
  -- at index j the comparisons are of the word x1 j with the constants 0 and 16
  exact toNat_lt16 (x1 j) hge' hlt'

end Cert.Proof.PreRange

end
-- ==== Proof.Tables.lean ====
/-
  The two scalar tables the kernel's index maps read, as functions of the launched task ids.

  Before the kernel runs, the host clips each of the 32 task ids to [0, 15], sorts the clipped ids stably carrying the
  positions 0 … 31 along (an argsort), and looks the clipped ids up at the sorted positions. So the first table is a
  permutation `perm` of the 32 batch rows (position k of the sorted order holds row `perm k`) and the second table
  holds, at position k, the clipped id of row `perm k`. Every word of the first table is below 32 and every word of
  the second below 16, whatever the launched ids are: each block the index maps name lies inside its array.
  Grid point t = (t / 16, t % 16) reads both tables at position t.
-/
import proofs.«413383_j1623497638479_3_alg».proof.Proof.Gen.KernelIdeal.Frame
import proofs.«413383_j1623497638479_3_alg».proof.Proof.PreRange
import Idealize.ShloMosaic.Lib.StableHlo.Run
import Idealize.ShloMosaic.Lib.StableHlo.Predicate
import Idealize.ShloMosaic.Lib.SortFacts
import Idealize.ShloMosaic.Lib.ValueIdx
import Idealize.ShloMosaic.Lib.Pipeline.Value

set_option maxRecDepth 16384

noncomputable section
namespace Cert.KernelIdeal.Tab
open Cert.KernelIdeal Cert.KernelIdeal.Gen
open Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ)

/-- The task ids as launched. -/
abbrev tid0 : IVec S32 32 := m (((0 : Dev nD) : Thread nD τ).loc main_arg1)

/-- The task ids clipped to [0, 15]. -/
def tid : IVec S32 32 :=
  minsi (broadcastInDim S32 ![] bcast_S_S32 (constantI S_ 32 15#32))
    (maxsi (broadcastInDim S32 ![] bcast_S_S32 (constantI S_ 32 0#32)) (tid0 m))

/-- The argsort of the clipped ids. -/
def ord : IVec S32 32 := (Host.sort2 S32 0 comparator_i32_i32_d0 (tid m) (iotaInDim S32 32 0)).2

theorem tbl0_eq : tbl m 0 = ord m := by
  unfold tbl
  show V m 0 main_v1 = _
  unfold V
  simp only [hostOps0, hostOps0_1, hostOps0_2, hostOps0_3, List.flatten_cons, List.flatten_nil, List.append_nil, List.cons_append, List.nil_append]
  after_results
  rfl

set_option maxHeartbeats 2000000 in
theorem tbl1_eq : tbl m 1 = Host.gather gather_S32_S32x1_S32_n_0_n_n_0_1_1 (tid m)
    (broadcastInDim S32x1 ![0] bcast_S32_S32x1_0
      (select (cmpi .slt (ord m) (broadcastInDim S32 ![] bcast_S_S32 (constantI S_ 32 0#32)))
        (addi (ord m) (broadcastInDim S32 ![] bcast_S_S32 (constantI S_ 32 32#32))) (ord m))) := by
  unfold tbl
  show V m 0 main_v8 = _
  unfold V
  simp only [hostOps0, hostOps0_1, hostOps0_2, hostOps0_3, List.flatten_cons, List.flatten_nil, List.append_nil, List.cons_append, List.nil_append]
  after_results
  rfl

/-- The stable sorting permutation of the 32 positions by clipped id: position k of the sorted order holds batch row perm k. -/
def perm : Fin 32 → Fin 32 :=
  sortedFrom (fun k k' => comparator_i32_i32_d0 (tid m (Shape.Idx.ofFin k), iotaInDim S32 32 0 (Shape.Idx.ofFin k))
    (tid m (Shape.Idx.ofFin k'), iotaInDim S32 32 0 (Shape.Idx.ofFin k')) == 1#1)

theorem perm_injective : Function.Injective (perm m) := sortedFrom_injective _
theorem perm_surjective : Function.Surjective (perm m) := sortedFrom_surjective _

/-- The argsort's word at position k is the row perm k. -/
theorem ord_apply (k : Fin 32) : ord m (Shape.Idx.ofFin k) = BitVec.ofNat 32 (perm m k).val := by
  unfold ord Host.sort2 perm
  simp [iotaInDim]

/-- A row number below 32, wrapped as a negative index would be and clamped into [0, 31], is itself. -/
theorem wrap_clamp_row (v : Fin 32) :
    min (Scalar.select (IntOp.cmpi .slt (BitVec.ofNat 32 v.val) 0#32) (IntOp.addi (BitVec.ofNat 32 v.val) 32#32) (BitVec.ofNat 32 v.val)).toInt.toNat (32 - 1) = v.val := by
  have hv := v.isLt
  have hi : (BitVec.ofNat 32 v.val).toInt = v.val := StableHlo.Predicate.toInt_ofNat_small _ (by omega)
  have hs : IntOp.cmpi .slt (BitVec.ofNat 32 v.val) 0#32 = 0#1 := by
    unfold IntOp.cmpi
    simp only [BitVec.slt, hi]
    have h0 : (0#32 : BitVec 32).toInt = 0 := by decide
    have : ¬ ((v.val : Int) < 0) := by omega
    simp [h0, this]
  rw [hs, ValueIdx.select_zero, hi]
  simp only [Int.toNat_natCast]
  omega

/-- The second table at position k is the clipped id of row perm k. -/
theorem tbl1_apply (k : Fin 32) : tbl m 1 (Shape.Idx.ofFin k) = tid m (Shape.Idx.ofFin (perm m k)) := by
  rw [tbl1_eq]
  refine (StableHlo.Predicate.gather_take gather_S32_S32x1_S32_n_0_n_n_0_1_1 rfl rfl rfl rfl (tid m) _ k (by decide)).trans ?_
  refine congrArg (fun v : Fin 32 => tid m (Shape.Idx.ofFin v)) (Fin.ext ?_)
  show min _ (32 - 1) = (perm m k).val
  rw [StableHlo.Predicate.bcast_col1 bcast_S32_S32x1_0]
  show min (Scalar.select (IntOp.cmpi .slt (ord m (Shape.Idx.ofFin k)) 0#32) (IntOp.addi (ord m (Shape.Idx.ofFin k)) 32#32)
    (ord m (Shape.Idx.ofFin k))).toInt.toNat (32 - 1) = _
  rw [ord_apply]
  exact wrap_clamp_row (perm m k)

theorem tbl0_apply (k : Fin 32) : tbl m 0 (Shape.Idx.ofFin k) = BitVec.ofNat 32 (perm m k).val := by
  rw [tbl0_eq, ord_apply]

theorem tid_lt (j : S32.Idx) : (tid m j).toNat < 16 := by
  unfold tid
  simp only [minsi, maxsi, broadcastInDim, constantI]
  exact Cert.Proof.PreRange.clip_lt _

theorem off_eq : ∀ t : Fin grid0.N, k0_off1 (grid0.coords t) = ![t.val] := by decide +kernel

/-- Every word of the first table names a batch row. -/
theorem tbl0_lt (x : (⟨1, ![32]⟩ : Shape).Idx) : (tbl m 0 x).toNat < 32 := by
  obtain ⟨k, rfl⟩ : ∃ k : Fin 32, x = Shape.Idx.ofFin k := ⟨x 0, Shape.Idx.eq_ofFin x⟩
  rw [tbl0_apply]
  have := (perm m k).isLt
  simp only [BitVec.toNat_ofNat]
  omega

/-- Every word of the second table names a row of the weight table. -/
theorem tbl1_lt (x : (⟨1, ![32]⟩ : Shape).Idx) : (tbl m 1 x).toNat < 16 := by
  obtain ⟨k, rfl⟩ : ∃ k : Fin 32, x = Shape.Idx.ofFin k := ⟨x 0, Shape.Idx.eq_ofFin x⟩
  rw [tbl1_apply]
  exact tid_lt m _

/-- Every block the index maps name lies inside its array: the batch rows are below 32, the weight rows below 16. -/
theorem ok : Ok m := by
  refine ⟨fun i => ?_, fun i => ?_, fun i => ?_⟩
  · obtain ⟨w, hw, e⟩ : ∃ w : BitVec 32, w.toNat < 32 ∧ cc0_transform_0 k0_off1_inb numel1_S1 (tbl m) i = ![w.toNat, 0, 0] :=
      ⟨_, tbl0_lt m _, rfl⟩
    refine ⟨fun a => ?_, Or.inl rfl⟩
    rw [e]; fin_cases a <;> simp [S1x1024x1024, S32x1024x1024] <;> omega
  · obtain ⟨w, hw, e⟩ : ∃ w : BitVec 32, w.toNat < 16 ∧ cc0_transform_1 k0_off1_inb numel1_S1 (tbl m) i = ![w.toNat, 0, 0] :=
      ⟨_, tbl1_lt m _, rfl⟩
    refine ⟨fun a => ?_, Or.inl rfl⟩
    rw [e]; fin_cases a <;> simp [S1x1024x1024, S16x1024x1024] <;> omega
  · obtain ⟨w, hw, e⟩ : ∃ w : BitVec 32, w.toNat < 32 ∧ cc0_transform_2 k0_off1_inb numel1_S1 (tbl m) i = ![w.toNat, 0, 0] :=
      ⟨_, tbl0_lt m _, rfl⟩
    refine ⟨fun a => ?_, Or.inl rfl⟩
    rw [e]; fin_cases a <;> simp [S1x1024x1024, S32x1024x1024] <;> omega

/-! ## The index maps, read through the tables

Grid point t (the pair (t / 16, t % 16), flattened) reads both tables at position t: the x and output windows sit at
batch row perm t, the weight window at the clipped id of that row. -/

/-- The one element of a unit rectangle at offset n of a 32-vector is element n. -/
theorem emb_first (off : Fin 1 → Nat) (n : Fin 32) (hoff : off 0 = n.val) (inb : ∀ a, off a + S1.size a ≤ S32.size a)
    (h1 : 0 < (Rect.unit (s := S32) off S1.size inb).shape.numel) :
    (Rect.unit (s := S32) off S1.size inb).emb (Shape.Idx.first h1) = Shape.Idx.ofFin n := by
  funext a
  apply Fin.ext
  obtain rfl : a = 0 := Subsingleton.elim _ _
  rw [Rect.emb_apply]
  show off 0 + 1 * (Shape.Idx.first h1 (0 : Fin 1)).val = n.val
  have hlt : (Shape.Idx.first h1 (0 : Fin 1)).val < 1 := (Shape.Idx.first h1 (0 : Fin 1)).isLt
  omega

theorem at0_eq (off : Fin 1 → Nat) (n : Fin 32) (hoff : off 0 = n.val) (inb : ∀ a, off a + S1.size a ≤ S32.size a)
    (h1 : (Rect.unit (s := S32) off S1.size inb).shape.numel = 1) :
    (tbl m).at 0 (Rect.unit (s := S32) off S1.size inb) h1 = tbl m 0 (Shape.Idx.ofFin n) :=
  congrArg (tbl m 0) (emb_first off n hoff inb _)

theorem at1_eq (off : Fin 1 → Nat) (n : Fin 32) (hoff : off 0 = n.val) (inb : ∀ a, off a + S1.size a ≤ S32.size a)
    (h1 : (Rect.unit (s := S32) off S1.size inb).shape.numel = 1) :
    (tbl m).at 1 (Rect.unit (s := S32) off S1.size inb) h1 = tbl m 1 (Shape.Idx.ofFin n) :=
  congrArg (tbl m 1) (emb_first off n hoff inb _)

/-- Grid point t as a position of the sorted order. -/
abbrev pos (t : Fin grid0.N) : Fin 32 := t.cast rfl

theorem ix_x (t : Fin grid0.N) :
    cc0_transform_0 k0_off1_inb numel1_S1 (tbl m) (grid0.coords t) = ![(perm m (pos t)).val, 0, 0] := by
  have h := at0_eq m (k0_off1 (grid0.coords t)) (pos t) (by rw [off_eq t]; rfl) (k0_off1_inb _) numel1_S1
  show ![((tbl m).at 0 (Rect.unit (s := S32) (k0_off1 (grid0.coords t)) S1.size (k0_off1_inb _)) numel1_S1).toNat, 0, 0] = _
  rw [h, tbl0_apply, BitVec.toNat_ofNat, Nat.mod_eq_of_lt (by have := (perm m (pos t)).isLt; omega)]

theorem ix_w (t : Fin grid0.N) :
    cc0_transform_1 k0_off1_inb numel1_S1 (tbl m) (grid0.coords t) = ![(tid m (Shape.Idx.ofFin (perm m (pos t)))).toNat, 0, 0] := by
  have h := at1_eq m (k0_off1 (grid0.coords t)) (pos t) (by rw [off_eq t]; rfl) (k0_off1_inb _) numel1_S1
  show ![((tbl m).at 1 (Rect.unit (s := S32) (k0_off1 (grid0.coords t)) S1.size (k0_off1_inb _)) numel1_S1).toNat, 0, 0] = _
  rw [h, tbl1_apply]

theorem ix_o (t : Fin grid0.N) :
    cc0_transform_2 k0_off1_inb numel1_S1 (tbl m) (grid0.coords t) = ![(perm m (pos t)).val, 0, 0] := by
  have h := at0_eq m (k0_off1 (grid0.coords t)) (pos t) (by rw [off_eq t]; rfl) (k0_off1_inb _) numel1_S1
  show ![((tbl m).at 0 (Rect.unit (s := S32) (k0_off1 (grid0.coords t)) S1.size (k0_off1_inb _)) numel1_S1).toNat, 0, 0] = _
  rw [h, tbl0_apply, BitVec.toNat_ofNat, Nat.mod_eq_of_lt (by have := (perm m (pos t)).isLt; omega)]

end Cert.KernelIdeal.Tab
end
-- ==== Proof.TablesBits.lean ====
/-
  The two scalar tables the kernel's index maps read, as functions of the launched task ids.

  Before the kernel runs, the host clips each of the 32 task ids to [0, 15], sorts the clipped ids stably carrying the
  positions 0 … 31 along (an argsort), and looks the clipped ids up at the sorted positions. So the first table is a
  permutation `perm` of the 32 batch rows (position k of the sorted order holds row `perm k`) and the second table
  holds, at position k, the clipped id of row `perm k`. Every word of the first table is below 32 and every word of
  the second below 16, whatever the launched ids are: each block the index maps name lies inside its array.
  Grid point t = (t / 16, t % 16) reads both tables at position t.
-/
import proofs.«413383_j1623497638479_3_alg».proof.Proof.Gen.Kernel.Frame
import proofs.«413383_j1623497638479_3_alg».proof.Proof.PreRange
import Idealize.ShloMosaic.Lib.StableHlo.Run
import Idealize.ShloMosaic.Lib.StableHlo.Predicate
import Idealize.ShloMosaic.Lib.SortFacts
import Idealize.ShloMosaic.Lib.ValueIdx
import Idealize.ShloMosaic.Lib.Pipeline.Value

set_option maxRecDepth 16384

noncomputable section
namespace Cert.Kernel.Tab
open Cert.Kernel Cert.Kernel.Gen
open Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ)

/-- The task ids as launched. -/
abbrev tid0 : IVec S32 32 := m (((0 : Dev nD) : Thread nD τ).loc main_arg1)

/-- The task ids clipped to [0, 15]. -/
def tid : IVec S32 32 :=
  minsi (broadcastInDim S32 ![] bcast_S_S32 (constantI S_ 32 15#32))
    (maxsi (broadcastInDim S32 ![] bcast_S_S32 (constantI S_ 32 0#32)) (tid0 m))

/-- The argsort of the clipped ids. -/
def ord : IVec S32 32 := (Host.sort2 S32 0 comparator_i32_i32_d0 (tid m) (iotaInDim S32 32 0)).2

theorem tbl0_eq : tbl m 0 = ord m := by
  unfold tbl
  show V m 0 main_v1 = _
  unfold V
  simp only [hostOps0, hostOps0_1, hostOps0_2, hostOps0_3, List.flatten_cons, List.flatten_nil, List.append_nil, List.cons_append, List.nil_append]
  after_results
  rfl

set_option maxHeartbeats 2000000 in
theorem tbl1_eq : tbl m 1 = Host.gather gather_S32_S32x1_S32_n_0_n_n_0_1_1 (tid m)
    (broadcastInDim S32x1 ![0] bcast_S32_S32x1_0
      (select (cmpi .slt (ord m) (broadcastInDim S32 ![] bcast_S_S32 (constantI S_ 32 0#32)))
        (addi (ord m) (broadcastInDim S32 ![] bcast_S_S32 (constantI S_ 32 32#32))) (ord m))) := by
  unfold tbl
  show V m 0 main_v8 = _
  unfold V
  simp only [hostOps0, hostOps0_1, hostOps0_2, hostOps0_3, List.flatten_cons, List.flatten_nil, List.append_nil, List.cons_append, List.nil_append]
  after_results
  rfl

/-- The stable sorting permutation of the 32 positions by clipped id: position k of the sorted order holds batch row perm k. -/
def perm : Fin 32 → Fin 32 :=
  sortedFrom (fun k k' => comparator_i32_i32_d0 (tid m (Shape.Idx.ofFin k), iotaInDim S32 32 0 (Shape.Idx.ofFin k))
    (tid m (Shape.Idx.ofFin k'), iotaInDim S32 32 0 (Shape.Idx.ofFin k')) == 1#1)

theorem perm_injective : Function.Injective (perm m) := sortedFrom_injective _
theorem perm_surjective : Function.Surjective (perm m) := sortedFrom_surjective _

/-- The argsort's word at position k is the row perm k. -/
theorem ord_apply (k : Fin 32) : ord m (Shape.Idx.ofFin k) = BitVec.ofNat 32 (perm m k).val := by
  unfold ord Host.sort2 perm
  simp [iotaInDim]

/-- A row number below 32, wrapped as a negative index would be and clamped into [0, 31], is itself. -/
theorem wrap_clamp_row (v : Fin 32) :
    min (Scalar.select (IntOp.cmpi .slt (BitVec.ofNat 32 v.val) 0#32) (IntOp.addi (BitVec.ofNat 32 v.val) 32#32) (BitVec.ofNat 32 v.val)).toInt.toNat (32 - 1) = v.val := by
  have hv := v.isLt
  have hi : (BitVec.ofNat 32 v.val).toInt = v.val := StableHlo.Predicate.toInt_ofNat_small _ (by omega)
  have hs : IntOp.cmpi .slt (BitVec.ofNat 32 v.val) 0#32 = 0#1 := by
    unfold IntOp.cmpi
    simp only [BitVec.slt, hi]
    have h0 : (0#32 : BitVec 32).toInt = 0 := by decide
    have : ¬ ((v.val : Int) < 0) := by omega
    simp [h0, this]
  rw [hs, ValueIdx.select_zero, hi]
  simp only [Int.toNat_natCast]
  omega

/-- The second table at position k is the clipped id of row perm k. -/
theorem tbl1_apply (k : Fin 32) : tbl m 1 (Shape.Idx.ofFin k) = tid m (Shape.Idx.ofFin (perm m k)) := by
  rw [tbl1_eq]
  refine (StableHlo.Predicate.gather_take gather_S32_S32x1_S32_n_0_n_n_0_1_1 rfl rfl rfl rfl (tid m) _ k (by decide)).trans ?_
  refine congrArg (fun v : Fin 32 => tid m (Shape.Idx.ofFin v)) (Fin.ext ?_)
  show min _ (32 - 1) = (perm m k).val
  rw [StableHlo.Predicate.bcast_col1 bcast_S32_S32x1_0]
  show min (Scalar.select (IntOp.cmpi .slt (ord m (Shape.Idx.ofFin k)) 0#32) (IntOp.addi (ord m (Shape.Idx.ofFin k)) 32#32)
    (ord m (Shape.Idx.ofFin k))).toInt.toNat (32 - 1) = _
  rw [ord_apply]
  exact wrap_clamp_row (perm m k)

theorem tbl0_apply (k : Fin 32) : tbl m 0 (Shape.Idx.ofFin k) = BitVec.ofNat 32 (perm m k).val := by
  rw [tbl0_eq, ord_apply]

theorem tid_lt (j : S32.Idx) : (tid m j).toNat < 16 := by
  unfold tid
  simp only [minsi, maxsi, broadcastInDim, constantI]
  exact Cert.Proof.PreRange.clip_lt _

theorem off_eq : ∀ t : Fin grid0.N, k0_off1 (grid0.coords t) = ![t.val] := by decide +kernel

/-- Every word of the first table names a batch row. -/
theorem tbl0_lt (x : (⟨1, ![32]⟩ : Shape).Idx) : (tbl m 0 x).toNat < 32 := by
  obtain ⟨k, rfl⟩ : ∃ k : Fin 32, x = Shape.Idx.ofFin k := ⟨x 0, Shape.Idx.eq_ofFin x⟩
  rw [tbl0_apply]
  have := (perm m k).isLt
  simp only [BitVec.toNat_ofNat]
  omega

/-- Every word of the second table names a row of the weight table. -/
theorem tbl1_lt (x : (⟨1, ![32]⟩ : Shape).Idx) : (tbl m 1 x).toNat < 16 := by
  obtain ⟨k, rfl⟩ : ∃ k : Fin 32, x = Shape.Idx.ofFin k := ⟨x 0, Shape.Idx.eq_ofFin x⟩
  rw [tbl1_apply]
  exact tid_lt m _

/-- Every block the index maps name lies inside its array: the batch rows are below 32, the weight rows below 16. -/
theorem ok : Ok m := by
  refine ⟨fun i => ?_, fun i => ?_, fun i => ?_⟩
  · obtain ⟨w, hw, e⟩ : ∃ w : BitVec 32, w.toNat < 32 ∧ cc0_transform_0 k0_off1_inb numel1_S1 (tbl m) i = ![w.toNat, 0, 0] :=
      ⟨_, tbl0_lt m _, rfl⟩
    refine ⟨fun a => ?_, Or.inl rfl⟩
    rw [e]; fin_cases a <;> simp [S1x1024x1024, S32x1024x1024] <;> omega
  · obtain ⟨w, hw, e⟩ : ∃ w : BitVec 32, w.toNat < 16 ∧ cc0_transform_1 k0_off1_inb numel1_S1 (tbl m) i = ![w.toNat, 0, 0] :=
      ⟨_, tbl1_lt m _, rfl⟩
    refine ⟨fun a => ?_, Or.inl rfl⟩
    rw [e]; fin_cases a <;> simp [S1x1024x1024, S16x1024x1024] <;> omega
  · obtain ⟨w, hw, e⟩ : ∃ w : BitVec 32, w.toNat < 32 ∧ cc0_transform_2 k0_off1_inb numel1_S1 (tbl m) i = ![w.toNat, 0, 0] :=
      ⟨_, tbl0_lt m _, rfl⟩
    refine ⟨fun a => ?_, Or.inl rfl⟩
    rw [e]; fin_cases a <;> simp [S1x1024x1024, S32x1024x1024] <;> omega

/-! ## The index maps, read through the tables

Grid point t (the pair (t / 16, t % 16), flattened) reads both tables at position t: the x and output windows sit at
batch row perm t, the weight window at the clipped id of that row. -/

/-- The one element of a unit rectangle at offset n of a 32-vector is element n. -/
theorem emb_first (off : Fin 1 → Nat) (n : Fin 32) (hoff : off 0 = n.val) (inb : ∀ a, off a + S1.size a ≤ S32.size a)
    (h1 : 0 < (Rect.unit (s := S32) off S1.size inb).shape.numel) :
    (Rect.unit (s := S32) off S1.size inb).emb (Shape.Idx.first h1) = Shape.Idx.ofFin n := by
  funext a
  apply Fin.ext
  obtain rfl : a = 0 := Subsingleton.elim _ _
  rw [Rect.emb_apply]
  show off 0 + 1 * (Shape.Idx.first h1 (0 : Fin 1)).val = n.val
  have hlt : (Shape.Idx.first h1 (0 : Fin 1)).val < 1 := (Shape.Idx.first h1 (0 : Fin 1)).isLt
  omega

theorem at0_eq (off : Fin 1 → Nat) (n : Fin 32) (hoff : off 0 = n.val) (inb : ∀ a, off a + S1.size a ≤ S32.size a)
    (h1 : (Rect.unit (s := S32) off S1.size inb).shape.numel = 1) :
    (tbl m).at 0 (Rect.unit (s := S32) off S1.size inb) h1 = tbl m 0 (Shape.Idx.ofFin n) :=
  congrArg (tbl m 0) (emb_first off n hoff inb _)

theorem at1_eq (off : Fin 1 → Nat) (n : Fin 32) (hoff : off 0 = n.val) (inb : ∀ a, off a + S1.size a ≤ S32.size a)
    (h1 : (Rect.unit (s := S32) off S1.size inb).shape.numel = 1) :
    (tbl m).at 1 (Rect.unit (s := S32) off S1.size inb) h1 = tbl m 1 (Shape.Idx.ofFin n) :=
  congrArg (tbl m 1) (emb_first off n hoff inb _)

/-- Grid point t as a position of the sorted order. -/
abbrev pos (t : Fin grid0.N) : Fin 32 := t.cast rfl

theorem ix_x (t : Fin grid0.N) :
    cc0_transform_0 k0_off1_inb numel1_S1 (tbl m) (grid0.coords t) = ![(perm m (pos t)).val, 0, 0] := by
  have h := at0_eq m (k0_off1 (grid0.coords t)) (pos t) (by rw [off_eq t]; rfl) (k0_off1_inb _) numel1_S1
  show ![((tbl m).at 0 (Rect.unit (s := S32) (k0_off1 (grid0.coords t)) S1.size (k0_off1_inb _)) numel1_S1).toNat, 0, 0] = _
  rw [h, tbl0_apply, BitVec.toNat_ofNat, Nat.mod_eq_of_lt (by have := (perm m (pos t)).isLt; omega)]

theorem ix_w (t : Fin grid0.N) :
    cc0_transform_1 k0_off1_inb numel1_S1 (tbl m) (grid0.coords t) = ![(tid m (Shape.Idx.ofFin (perm m (pos t)))).toNat, 0, 0] := by
  have h := at1_eq m (k0_off1 (grid0.coords t)) (pos t) (by rw [off_eq t]; rfl) (k0_off1_inb _) numel1_S1
  show ![((tbl m).at 1 (Rect.unit (s := S32) (k0_off1 (grid0.coords t)) S1.size (k0_off1_inb _)) numel1_S1).toNat, 0, 0] = _
  rw [h, tbl1_apply]

theorem ix_o (t : Fin grid0.N) :
    cc0_transform_2 k0_off1_inb numel1_S1 (tbl m) (grid0.coords t) = ![(perm m (pos t)).val, 0, 0] := by
  have h := at0_eq m (k0_off1 (grid0.coords t)) (pos t) (by rw [off_eq t]; rfl) (k0_off1_inb _) numel1_S1
  show ![((tbl m).at 0 (Rect.unit (s := S32) (k0_off1 (grid0.coords t)) S1.size (k0_off1_inb _)) numel1_S1).toNat, 0, 0] = _
  rw [h, tbl0_apply, BitVec.toNat_ofNat, Nat.mod_eq_of_lt (by have := (perm m (pos t)).isLt; omega)]

end Cert.Kernel.Tab
end
-- ==== Proof.Blocks.lean ====
/-
  The kernel's three windows, read through the tables.

  At grid point t the x window and the output window sit at batch row `perm t` (one whole 1024 × 1024 matrix of the
  batch), and the weight window at the clipped task id of that row (one whole weight matrix of the table, the table's flat
  rows reshaped to 1024 × 1024). Since `perm` is a permutation, distinct points write distinct output blocks, so every
  point writes its block back. The facts that only unfold the pipeline's definitions are stated at arbitrary admissible
  table contents and then used at the launched ones.
-/
import proofs.«413383_j1623497638479_3_alg».proof.Proof.Tables
import Idealize.ShloMosaic.Lib.Pipeline.Value
import Idealize.ShloMosaic.Lib.ValueIdx

set_option maxRecDepth 16384

noncomputable section
namespace Cert.KernelIdeal.Blocks
open Cert.KernelIdeal Cert.KernelIdeal.Gen Cert.KernelIdeal.Tab
open Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ)

/-! ## The windows at any admissible contents of the tables

Stated for the pipeline at arbitrary admissible table contents `a`, and used at the contents the launch memory gives. -/

section AnyContents
variable (a : (pcfg0 (F := F)).Adm)

theorem index0_a (t : Fin (cfg0 a).N) : ((cfg0 a).win 0).index t = cc0_transform_0 k0_off1_inb numel1_S1 a.1 (grid0.coords t) := rfl
theorem index1_a (t : Fin (cfg0 a).N) : ((cfg0 a).win 1).index t = cc0_transform_1 k0_off1_inb numel1_S1 a.1 (grid0.coords t) := rfl
theorem index2_a (t : Fin (cfg0 a).N) : ((cfg0 a).win 2).index t = cc0_transform_2 k0_off1_inb numel1_S1 a.1 (grid0.coords t) := rfl
theorem isOut2_a : ((cfg0 a).win 2).isOut = true := rfl

/-- An entry y of window 0's block at point t sits in the array at block index × block size + y on every axis. -/
theorem emb0_a (t : Fin (cfg0 a).N) (y : S1x1024x1024.Idx) (i : S32x1024x1024.Idx) (ix : Fin 3 → Nat)
    (hix : ((cfg0 a).win 0).index t = ix) (hi : ∀ ax : Fin 3, (i ax).val = ix ax * S1x1024x1024.size ax + (y ax).val) :
    (((cfg0 a).win 0).blk t).view.emb y = i := by
  subst hix
  funext ax
  apply Fin.ext
  rw [hi ax]
  match ax with
  | ⟨0, _⟩ => show ((cfg0 a).win 0).index t (0 : Fin 3) * 1 + 1 * (y 0).val = ((cfg0 a).win 0).index t (0 : Fin 3) * 1 + (y 0).val; omega
  | ⟨1, _⟩ => show ((cfg0 a).win 0).index t (1 : Fin 3) * 1024 + 1 * (y 1).val = ((cfg0 a).win 0).index t (1 : Fin 3) * 1024 + (y 1).val; omega
  | ⟨2, _⟩ => show ((cfg0 a).win 0).index t (2 : Fin 3) * 1024 + 1 * (y 2).val = ((cfg0 a).win 0).index t (2 : Fin 3) * 1024 + (y 2).val; omega

/-- So the block read at y is the array read there. -/
theorem read0_a (t : Fin (cfg0 a).N) (X : S32x1024x1024.Idx → Elt F .f32) (y : S1x1024x1024.Idx) (i : S32x1024x1024.Idx) (ix : Fin 3 → Nat)
    (hix : ((cfg0 a).win 0).index t = ix) (hi : ∀ ax : Fin 3, (i ax).val = ix ax * S1x1024x1024.size ax + (y ax).val) :
    (((cfg0 a).win 0).blk t).view.read (Elt F) X y = X i := by
  show X ((((cfg0 a).win 0).blk t).view.emb y) = X i
  rw [emb0_a a t y i ix hix hi]

/-- An entry y of window 1's block at point t sits in the array at block index × block size + y on every axis. -/
theorem emb1_a (t : Fin (cfg0 a).N) (y : S1x1024x1024.Idx) (i : S16x1024x1024.Idx) (ix : Fin 3 → Nat)
    (hix : ((cfg0 a).win 1).index t = ix) (hi : ∀ ax : Fin 3, (i ax).val = ix ax * S1x1024x1024.size ax + (y ax).val) :
    (((cfg0 a).win 1).blk t).view.emb y = i := by
  subst hix
  funext ax
  apply Fin.ext
  rw [hi ax]
  match ax with
  | ⟨0, _⟩ => show ((cfg0 a).win 1).index t (0 : Fin 3) * 1 + 1 * (y 0).val = ((cfg0 a).win 1).index t (0 : Fin 3) * 1 + (y 0).val; omega
  | ⟨1, _⟩ => show ((cfg0 a).win 1).index t (1 : Fin 3) * 1024 + 1 * (y 1).val = ((cfg0 a).win 1).index t (1 : Fin 3) * 1024 + (y 1).val; omega
  | ⟨2, _⟩ => show ((cfg0 a).win 1).index t (2 : Fin 3) * 1024 + 1 * (y 2).val = ((cfg0 a).win 1).index t (2 : Fin 3) * 1024 + (y 2).val; omega

/-- So the block read at y is the array read there. -/
theorem read1_a (t : Fin (cfg0 a).N) (X : S16x1024x1024.Idx → Elt F .f32) (y : S1x1024x1024.Idx) (i : S16x1024x1024.Idx) (ix : Fin 3 → Nat)
    (hix : ((cfg0 a).win 1).index t = ix) (hi : ∀ ax : Fin 3, (i ax).val = ix ax * S1x1024x1024.size ax + (y ax).val) :
    (((cfg0 a).win 1).blk t).view.read (Elt F) X y = X i := by
  show X ((((cfg0 a).win 1).blk t).view.emb y) = X i
  rw [emb1_a a t y i ix hix hi]

/-- An entry y of window 2's block at point t sits in the array at block index × block size + y on every axis. -/
theorem emb2_a (t : Fin (cfg0 a).N) (y : S1x1024x1024.Idx) (i : S32x1024x1024.Idx) (ix : Fin 3 → Nat)
    (hix : ((cfg0 a).win 2).index t = ix) (hi : ∀ ax : Fin 3, (i ax).val = ix ax * S1x1024x1024.size ax + (y ax).val) :
    (((cfg0 a).win 2).blk t).view.emb y = i := by
  subst hix
  funext ax
  apply Fin.ext
  rw [hi ax]
  match ax with
  | ⟨0, _⟩ => show ((cfg0 a).win 2).index t (0 : Fin 3) * 1 + 1 * (y 0).val = ((cfg0 a).win 2).index t (0 : Fin 3) * 1 + (y 0).val; omega
  | ⟨1, _⟩ => show ((cfg0 a).win 2).index t (1 : Fin 3) * 1024 + 1 * (y 1).val = ((cfg0 a).win 2).index t (1 : Fin 3) * 1024 + (y 1).val; omega
  | ⟨2, _⟩ => show ((cfg0 a).win 2).index t (2 : Fin 3) * 1024 + 1 * (y 2).val = ((cfg0 a).win 2).index t (2 : Fin 3) * 1024 + (y 2).val; omega

/-- So the block read at y is the array read there. -/
theorem read2_a (t : Fin (cfg0 a).N) (X : S32x1024x1024.Idx → Elt F .f32) (y : S1x1024x1024.Idx) (i : S32x1024x1024.Idx) (ix : Fin 3 → Nat)
    (hix : ((cfg0 a).win 2).index t = ix) (hi : ∀ ax : Fin 3, (i ax).val = ix ax * S1x1024x1024.size ax + (y ax).val) :
    (((cfg0 a).win 2).blk t).view.read (Elt F) X y = X i := by
  show X ((((cfg0 a).win 2).blk t).view.emb y) = X i
  rw [emb2_a a t y i ix hix hi]

/-- The array entry under entry y of the output block at point t is in that block. -/
theorem mem2_a (t : Fin (cfg0 a).N) (y : S1x1024x1024.Idx) (i : S32x1024x1024.Idx) (ix : Fin 3 → Nat)
    (hix : ((cfg0 a).win 2).index t = ix) (hi : ∀ ax : Fin 3, (i ax).val = ix ax * S1x1024x1024.size ax + (y ax).val) :
    i ∈ (((cfg0 a).win 2).blk t).view.set :=
  emb2_a a t y i ix hix hi ▸ (((cfg0 a).win 2).blk t).view.emb_mem_set y

/-- What a point writes back is what the body left, entry by entry (no block is cut). -/
theorem flushed_apply_a {c : Dev nD} (dat : Pipeline.Dat τ (Elt F) Unit ℕ (UR sig nD τ) ℕ (cfg0 a) c) (t : Fin (cfg0 a).N)
    (y : S1x1024x1024.Idx) : dat.flushed 2 t y = dat.after 2 t y := rfl

end AnyContents

/-! ## At the launched tables -/

theorem index_x (hO : Ok m) (t : Fin (cfgM m hO).N) : ((cfgM m hO).win 0).index t = ![(perm m (pos t)).val, 0, 0] :=
  (index0_a (adm m hO) t).trans (ix_x m t)
theorem index_w (hO : Ok m) (t : Fin (cfgM m hO).N) :
    ((cfgM m hO).win 1).index t = ![(tid m (Shape.Idx.ofFin (perm m (pos t)))).toNat, 0, 0] :=
  (index1_a (adm m hO) t).trans (ix_w m t)
theorem index_o (hO : Ok m) (t : Fin (cfgM m hO).N) : ((cfgM m hO).win 2).index t = ![(perm m (pos t)).val, 0, 0] :=
  (index2_a (adm m hO) t).trans (ix_o m t)

/-- Distinct points write distinct output blocks (the first table is a permutation), so every point writes its block back. -/
theorem flush_o (hO : Ok m) (t : Fin (cfgM m hO).N) : ((cfgM m hO).win 2).flush t = true := by
  unfold Pipeline.Window.flush
  rw [isOut2_a (adm m hO), Bool.true_and, Bool.or_eq_true, decide_eq_true_eq, decide_eq_true_eq]
  have ht : t.val < 32 := t.isLt
  by_cases hl : t.val + 1 = (cfgM m hO).grid.N
  · exact Or.inl hl
  · have hN : (cfgM m hO).grid.N = 32 := rfl
    refine Or.inr ⟨by omega, fun he => ?_⟩
    rw [index_o, index_o] at he
    have hlt : t.val + 1 < 32 := by omega
    have h0 : (perm m (pos ⟨t.val + 1, hlt⟩)).val = (perm m (pos t)).val := congrFun he 0
    have h1 := perm_injective m (Fin.ext h0)
    have h2 : t.val + 1 = t.val := congrArg Fin.val h1
    omega

/-- The weight array as the kernel's window finds it: W with each flat row reshaped to 1024 × 1024. -/
theorem V_w (c : Dev nD) : V m c main_v9
    = shapeCast S16x1024x1024 (m ((c : Thread nD τ).loc main_arg2)) shapeCasts_S16x1048576_S16x1024x1024 := by
  unfold V
  simp only [hostOps0, hostOps0_1, hostOps0_2, hostOps0_3, List.flatten_cons, List.flatten_nil, List.append_nil, List.cons_append, List.nil_append]
  after_results
  rfl

/-- Entry (a, q, k) of the reshaped array is entry (a, q · 1024 + k) of the flat one. -/
theorem w3_apply (W : S16x1048576.Idx → Elt F .f32) (a : Fin 16) (q k : Fin 1024) :
    shapeCast S16x1024x1024 W shapeCasts_S16x1048576_S16x1024x1024 (ix3 a q k)
      = W (ix2 a (⟨q.val * 1024 + k.val, by have := q.isLt; have := k.isLt; omega⟩ : Fin 1048576)) :=
  shapeCast_apply W shapeCasts_S16x1048576_S16x1024x1024 (ix3 a q k) (ix2 a ⟨q.val * 1024 + k.val, by have := q.isLt; have := k.isLt; omega⟩)
    (by rewrite [Shape.rowMajor_val_two, Shape.rowMajor_val_three]
        show a.val * 1048576 + (q.val * 1024 + k.val) = (a.val * 1024 + q.val) * 1024 + k.val
        omega)

/-- The row of the weight table the kernel reads for batch row b: its clipped task id. -/
def krow (b : Fin 32) : Fin 16 := ⟨(tid m (Shape.Idx.ofFin b)).toNat, tid_lt m _⟩

/-- Entry y of the x block at point t is x at batch row perm t. -/
theorem iblk0_apply (hO : Ok m) (c : Dev nD) (t : Fin (cfgM m hO).N) (y : S1x1024x1024.Idx) :
    iblk m hO c 0 t y = m ((c : Thread nD τ).loc main_arg0)
      (ix3 (perm m (pos t)) (⟨(y 1).val, (y 1).isLt⟩ : Fin 1024) (⟨(y 2).val, (y 2).isLt⟩ : Fin 1024)) := by
  unfold iblk
  refine (read0_a (adm m hO) t (V m c (Pipeline.arrRef spec0 0)) y
    (ix3 (perm m (pos t)) (⟨(y 1).val, (y 1).isLt⟩ : Fin 1024) (⟨(y 2).val, (y 2).isLt⟩ : Fin 1024)) _ (index_x m hO t) (fun ax => ?_)).trans
    (congrFun (V_main_arg0 m c) _)
  match ax with
  | ⟨0, _⟩ => show (perm m (pos t)).val = (perm m (pos t)).val * 1 + (y 0).val; have : (y 0).val < 1 := (y 0).isLt; omega
  | ⟨1, _⟩ => show (y 1).val = 0 * 1024 + (y 1).val; omega
  | ⟨2, _⟩ => show (y 2).val = 0 * 1024 + (y 2).val; omega

/-- Entry y of the weight block at point t is W at the clipped id of batch row perm t, flat column y₁ · 1024 + y₂. -/
theorem iblk1_apply (hO : Ok m) (c : Dev nD) (t : Fin (cfgM m hO).N) (y : S1x1024x1024.Idx) :
    iblk m hO c 1 t y = m ((c : Thread nD τ).loc main_arg2)
      (ix2 (krow m (perm m (pos t))) (⟨(y 1).val * 1024 + (y 2).val, by have h1 : (y 1).val < 1024 := (y 1).isLt; have h2 : (y 2).val < 1024 := (y 2).isLt; omega⟩ : Fin 1048576)) := by
  unfold iblk
  refine (read1_a (adm m hO) t (V m c (Pipeline.arrRef spec0 1)) y
    (ix3 (krow m (perm m (pos t))) (⟨(y 1).val, (y 1).isLt⟩ : Fin 1024) (⟨(y 2).val, (y 2).isLt⟩ : Fin 1024)) _ (index_w m hO t) (fun ax => ?_)).trans ?_
  · match ax with
    | ⟨0, _⟩ => show (tid m (Shape.Idx.ofFin (perm m (pos t)))).toNat = (tid m (Shape.Idx.ofFin (perm m (pos t)))).toNat * 1 + (y 0).val; have : (y 0).val < 1 := (y 0).isLt; omega
    | ⟨1, _⟩ => show (y 1).val = 0 * 1024 + (y 1).val; omega
    | ⟨2, _⟩ => show (y 2).val = 0 * 1024 + (y 2).val; omega
  · rw [show V m c (Pipeline.arrRef spec0 1) = _ from V_w m c]
    exact w3_apply _ _ _ _

end Cert.KernelIdeal.Blocks
end
-- ==== Proof.BodyValue.lean ====
/-
  What one grid point of the kernel computes. The body loads its two [1,1024,1024] input blocks whole, drops the
  leading unit axis of each, multiplies the two 1024×1024 matrices contracting the LAST axis of both (so the second
  matrix enters transposed: entry (r, q) pairs row r of the first with row q of the second), accumulates into zero,
  puts the unit axis back and stores the result over the whole output block.

    outsAt0_eq — for any float instance: after point t the output's staging buffer holds that payload of the two
      input blocks at t (the one store covers the block, and a whole-buffer load returns the buffer's contents).
    pay_apply  — over the extended reals: entry (0, r, q) of the payload is ∑ₖ x0(0, r, k) · x1(0, q, k).
-/
import proofs.«413383_j1623497638479_3_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.BodyValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable {F : FTy → Type} [FloatOps F]

variable (m : (ℓ : Loc nD τ sig) → Buf (Elt F) ℓ)

/-- The store's offsets are all zero. -/
theorem store_offsets_zero : (![0, 0, 0] : Fin 3 → Nat) = fun _ => 0 := funext fun a => by fin_cases a <;> rfl

/-- On any whole staging memrefs the body's one store covers the output block, and what it stores is the payload of
    the two loaded blocks: each load reads the whole buffer it is handed. -/
theorem out_block_eq (c : Dev nD) (i : grid0.Coords) (arg4 : Memref sig .tc .vmem S1x1024x1024 .f32) (harg4 : arg4.IsWhole)
    (arg5 : Memref sig .tc .vmem S1x1024x1024 .f32) (harg5 : arg5.IsWhole)
    (arg6 : Memref sig .tc .vmem S1x1024x1024 .f32) (harg6 : arg6.IsWhole)
    (x0 x1 : Vec F S1x1024x1024 .f32) (xt0 : TbBuf0 (F := F) c tbM0_0) (xt1 : TbBuf0 (F := F) c tbM0_1) :
    out0_A_2 c i arg4 harg4 arg5 harg5 arg6 harg6 x0 x1 xt0 xt1 = k0_pay1 x0 x1 := by
  unfold out0_A_2
  rw [View.read_writes_eq_canon _ _ _ (cover0_A_2 c i arg4 harg4 arg5 harg5 arg6 harg6 x0 x1 xt0 xt1)]
  unfold kernelRun0_A
  dsimp only
  sl_unfold_words
  rw [View.canon_unit_zero store_offsets_zero]
  simp only [View.readAt_eq_ld, harg4.read_unread, harg5.read_unread, View.ld_unit_zero (S := S1x1024x1024) store_offsets_zero]

/-- What the body leaves in the output's staging buffer at point t is its one payload of the two input blocks (generic in F). -/
theorem outsAt0_eq (hO : Ok m) (c : Dev nD) (t : Fin (cfgM m hO).N) :
    outsAt0 m hO c t = k0_pay1 (iblk m hO c 0 t) (iblk m hO c 1 t) := by
  unfold outsAt0
  exact out_block_eq c (grid0.coords t) (ms0_0 m hO t) (hs0_0 m hO t) (ms0_1 m hO t) (hs0_1 m hO t) (ms0_2 m hO t) (hs0_2 m hO t)
    (iblk m hO c 0 t) (iblk m hO c 1 t) (tbl m 0) (tbl m 1)

/-! ## The product's operand indices

The product contracts axis 1 of both operands and has no batch axis: at output index (r, q) and contraction position k the
left operand is read at (r, k) and the right one at (q, k). One lemma per operand axis. -/

theorem lhs_pay_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_pay_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_pay_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_pay_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product into the zero accumulator, at entry (r, q): row r of the left operand against row q of the right one. -/
theorem matmul_rq (a b : FVec Ideal S1024x1024 .f32) (r q : Fin 1024) :
    matmul dot_S1024x1024_S1024x1024_S1024x1024_1_1_0_0_n_n (some .fp32) a b (constant (F := Ideal) S1024x1024 .f32 0x00000000#32) (ix2 r q)
      = ∑ k : Fin 1024, a (ix2 r k) * b (ix2 q k) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 r q) ((contrEquiv1 dot_S1024x1024_S1024x1024_S1024x1024_1_1_0_0_n_n 1024 rfl rfl).symm k) = ix2 r k := funext fun a => Fin.ext (by
    match a with
    | ⟨0, _⟩ => exact lhs_pay_0 _ _
    | ⟨1, _⟩ => exact (lhs_pay_1 _ _).trans hk)
  have er : dot_S1024x1024_S1024x1024_S1024x1024_1_1_0_0_n_n.rhsIdx (ix2 r q) ((contrEquiv1 dot_S1024x1024_S1024x1024_S1024x1024_1_1_0_0_n_n 1024 rfl rfl).symm k) = ix2 q k := funext fun a => Fin.ext (by
    match a with
    | ⟨0, _⟩ => exact rhs_pay_0 _ _
    | ⟨1, _⟩ => exact (rhs_pay_1 _ _).trans hk)
  rw [el, er]

/-- The payload at an index, at Ideal: the product of row r of the first block with row q of the second. -/
theorem pay_apply (x0 x1 : Vec Ideal S1x1024x1024 .f32) (r q : Fin 1024) :
    k0_pay1 (F := Ideal) x0 x1 (ix3 (0 : Fin 1) r q) = ∑ k : Fin 1024, x0 (ix3 (0 : Fin 1) r k) * x1 (ix3 (0 : Fin 1) q k) := by
  unfold k0_pay1
  refine (shapeCast_ab_1ab_apply _ shapeCasts_S1024x1024_S1x1024x1024 (0 : Fin 1) r q).trans ?_
  refine (matmul_rq _ _ r q).trans ?_
  refine Finset.sum_congr rfl fun k _ => ?_
  exact congrArg₂ (· * ·) (shapeCast_1ab_ab_apply x0 shapeCasts_S1x1024x1024_S1024x1024 r k)
    (shapeCast_1ab_ab_apply x1 shapeCasts_S1x1024x1024_S1024x1024 q k)

end Cert.KernelIdeal.BodyValue

end
-- ==== Proof.Spec.lean ====
/-
  The result both programs compute, as one function of the three inputs.

  x is a batch of 32 matrices of shape 1024 × 1024; W holds 16 weight matrices of shape 1024 × 1024, each stored flat as
  one row of 1048576 entries (entry (q, k) of a matrix at column q · 1024 + k); `row b` names the weight matrix that batch
  entry b uses. Entry (b, r, q) of the result pairs row r of x[b] with row q of that weight matrix:
  ∑ₖ x[b, r, k] · W[row b, q · 1024 + k], the products taken over the extended reals in this order.
-/
import Idealize.ShloMosaic.Lib.ValueIdx
import Idealize.ShloMosaic.PureOps.Ideal.Laws

noncomputable section

namespace Cert.Spec

open Idealize.ShloMosaic Idealize.ShloMosaic.ValueIdx
open scoped BigOperators

/-- Where entry (q, k) of a 1024 × 1024 matrix sits in its flat row. -/
abbrev col (q k : Fin 1024) : Fin 1048576 := ⟨q.val * 1024 + k.val, by have := q.isLt; have := k.isLt; omega⟩

/-- Entry (b, r, q) of the result. -/
def Gc (x : FVec Ideal ⟨3, ![32, 1024, 1024]⟩ .f32) (row : Fin 32 → Fin 16) (W : FVec Ideal ⟨2, ![16, 1048576]⟩ .f32)
    (b : Fin 32) (r q : Fin 1024) : Ideal .f32 :=
  ∑ k : Fin 1024, x (ix3 b r k) * W (ix2 (row b) (col q k))

/-- The result array. -/
def G (x : FVec Ideal ⟨3, ![32, 1024, 1024]⟩ .f32) (row : Fin 32 → Fin 16) (W : FVec Ideal ⟨2, ![16, 1048576]⟩ .f32) :
    FVec Ideal ⟨3, ![32, 1024, 1024]⟩ .f32 :=
  fun i => Gc x row W (i 0) (i 1) (i 2)

theorem G_apply (x : FVec Ideal ⟨3, ![32, 1024, 1024]⟩ .f32) (row : Fin 32 → Fin 16) (W : FVec Ideal ⟨2, ![16, 1048576]⟩ .f32)
    (b : Fin 32) (r q : Fin 1024) : G x row W (ix3 b r q) = Gc x row W b r q := rfl

/-- Two row choices that agree give the same result. -/
theorem G_congr (x : FVec Ideal ⟨3, ![32, 1024, 1024]⟩ .f32) {row row' : Fin 32 → Fin 16} (h : ∀ b, row b = row' b)
    (W : FVec Ideal ⟨2, ![16, 1048576]⟩ .f32) : G x row W = G x row' W := by
  rw [funext h]

end Cert.Spec

end
-- ==== Proof.OutValue.lean ====
/-
  The kernel's result array over the extended reals.

  Point t of the grid multiplies batch matrix x[perm t] with the weight matrix of that row's clipped task id, contracting
  the last axis of both, and writes the product to block perm t of the output: entry (r, q) of the block is
  ∑ₖ x[perm t, r, k] · W[id, q · 1024 + k]. That is block perm t of ONE whole-array function of the inputs (the
  specification `Cert.Spec.G` at the clipped ids); `perm` being onto, the blocks cover the output, so after the run
  the output array is that function.
-/
import proofs.«413383_j1623497638479_3_alg».proof.Proof.Blocks
import proofs.«413383_j1623497638479_3_alg».proof.Proof.BodyValue
import proofs.«413383_j1623497638479_3_alg».proof.Proof.Spec

set_option maxRecDepth 16384

noncomputable section
namespace Cert.KernelIdeal.OutValue
open Cert.KernelIdeal Cert.KernelIdeal.Gen Cert.KernelIdeal.Tab Cert.KernelIdeal.Blocks
open Idealize.ShloMosaic Idealize.ShloMosaic.TcCoe Idealize.SL.Sem Idealize.ShloMosaic.ValueIdx
open Idealize.ShloMosaic.Pipeline (Dat)
open scoped BigOperators

/-! ## At any admissible contents of the tables -/

section AnyContents
variable (a : (pcfg0 (F := Ideal)).Adm)

/-- If what the body leaves at point t is, entry by entry, a whole-array function G read under the block, then what the
    point writes back is block t of G. -/
theorem flushed_eq_a {c : Dev nD} (dat : Dat τ (Elt Ideal) Unit ℕ (UR sig nD τ) ℕ (cfg0 a) c) (t : Fin (cfg0 a).N)
    (G : S32x1024x1024.Idx → Elt Ideal .f32) (ix : Fin 3 → Nat) (hix : ((cfg0 a).win 2).index t = ix)
    (i : S1x1024x1024.Idx → S32x1024x1024.Idx)
    (hi : ∀ (y : S1x1024x1024.Idx) (ax : Fin 3), (i y ax).val = ix ax * S1x1024x1024.size ax + (y ax).val)
    (h : ∀ y : S1x1024x1024.Idx, dat.after 2 t y = G (i y)) :
    dat.flushed 2 t = (((cfg0 a).win 2).blk t).view.read (Elt Ideal) G := by
  funext y
  exact ((flushed_apply_a a dat t y).trans (h y)).trans (read2_a a t G y (i y) ix hix (hi y)).symm

/-- Every point writing back its block of G, and the blocks covering the array, the array ends holding G. -/
theorem final_a {c : Dev nD} (dat : Dat τ (Elt Ideal) Unit ℕ (UR sig nD τ) ℕ (cfg0 a) c) (G : S32x1024x1024.Idx → Elt Ideal .f32)
    (hG : ∀ t, dat.flushed 2 t = (((cfg0 a).win 2).blk t).view.read (Elt Ideal) G)
    (hcover : ∀ i : S32x1024x1024.Idx, ∃ t : Fin (cfg0 a).N, ((cfg0 a).win 2).flush t = true ∧ i ∈ (((cfg0 a).win 2).blk t).view.set) :
    dat.arrAt 2 (cfg0 a).N = G :=
  dat.arrAt_eq_of_cover 2 G (fun t _ => hG t) hcover

end AnyContents

/-! ## At the launched tables -/

variable (m : (ℓ : Loc nD τ sig) → Buf (Elt Ideal) ℓ) (ρ : Dev nD → PrngReg)

/-- The kernel's result on device c: the specification at the clipped task ids. -/
def Gk (c : Dev nD) : S32x1024x1024.Idx → Elt Ideal .f32 :=
  Cert.Spec.G (m ((c : Thread nD τ).loc main_arg0)) (krow m) (m ((c : Thread nD τ).loc main_arg2))

/-- The body's payload at any entry of the block: row y₁ of the first block against row y₂ of the second. -/
theorem pay_at (x0 x1 : Vec Ideal S1x1024x1024 .f32) (y : S1x1024x1024.Idx) :
    k0_pay1 (F := Ideal) x0 x1 y = ∑ k : Fin 1024, x0 (ix3 (0 : Fin 1) (⟨(y 1).val, (y 1).isLt⟩ : Fin 1024) k)
      * x1 (ix3 (0 : Fin 1) (⟨(y 2).val, (y 2).isLt⟩ : Fin 1024) k) := by
  obtain ⟨u, r, q, rfl⟩ : ∃ (u : Fin 1) (r q : Fin 1024), y = ix3 u r q := ⟨y 0, y 1, y 2, eq_ix3 y⟩
  obtain rfl : u = 0 := Subsingleton.elim _ _
  exact BodyValue.pay_apply x0 x1 r q

/-- The array entry under entry y of the block at batch row b. -/
abbrev under (b : Fin 32) (y : S1x1024x1024.Idx) : S32x1024x1024.Idx :=
  ix3 b (⟨(y 1).val, (y 1).isLt⟩ : Fin 1024) (⟨(y 2).val, (y 2).isLt⟩ : Fin 1024)

theorem under_val (b : Fin 32) (y : S1x1024x1024.Idx) (ax : Fin 3) :
    (under b y ax).val = (![b.val, 0, 0] : Fin 3 → Nat) ax * S1x1024x1024.size ax + (y ax).val := by
  match ax with
  | ⟨0, _⟩ => show b.val = b.val * 1 + (y 0).val; have : (y 0).val < 1 := (y 0).isLt; omega
  | ⟨1, _⟩ => show (y 1).val = 0 * 1024 + (y 1).val; omega
  | ⟨2, _⟩ => show (y 2).val = 0 * 1024 + (y 2).val; omega

/-- What the body leaves at point t, entry by entry, is the specification under block perm t. -/
theorem after_eq (hO : Ok m) (c : Dev nD) (t : Fin (cfgM m hO).N) (y : S1x1024x1024.Idx) :
    (dats m hO 0 c).after 2 t y = Gk m c (under (perm m (pos t)) y) := by
  rw [after0_2, BodyValue.outsAt0_eq]
  refine (pay_at _ _ y).trans ?_
  show _ = Cert.Spec.Gc _ _ _ _ _ _
  unfold Cert.Spec.Gc
  refine Finset.sum_congr rfl fun k _ => ?_
  rw [iblk0_apply, iblk1_apply]

/-- WHAT POINT t WRITES BACK is block t of the specification. -/
theorem flushed_eq (hO : Ok m) (c : Dev nD) (t : Fin (cfgM m hO).N) :
    (dats m hO 0 c).flushed 2 t = (((cfgM m hO).win 2).blk t).view.read (Elt Ideal) (Gk m c) :=
  flushed_eq_a (adm m hO) (dats m hO 0 c) t (Gk m c) _ (index_o m hO t) (under (perm m (pos t)))
    (under_val (perm m (pos t))) (after_eq m hO c t)

/-- Every entry of the output is under some point's block: its batch row is perm k for some position k. -/
theorem cover (hO : Ok m) (i : S32x1024x1024.Idx) :
    ∃ t : Fin (cfgM m hO).N, ((cfgM m hO).win 2).flush t = true ∧ i ∈ (((cfgM m hO).win 2).blk t).view.set := by
  obtain ⟨k, hk⟩ := perm_surjective m (i 0)
  let t : Fin (cfgM m hO).N := k.cast rfl
  have ht : pos t = k := Fin.ext rfl
  refine ⟨t, flush_o m hO t, ?_⟩
  refine mem2_a (adm m hO) t (ix3 (0 : Fin 1) (i 1) (i 2)) i _ (index_o m hO t) (fun ax => ?_)
  rw [ht, hk]
  match ax with
  | ⟨0, _⟩ => show (i 0).val = (i 0).val * 1 + 0; omega
  | ⟨1, _⟩ => show (i 1).val = 0 * 1024 + (i 1).val; omega
  | ⟨2, _⟩ => show (i 2).val = 0 * 1024 + (i 2).val; omega

/-- THE OUTPUT ARRAY after the run is the specification. -/
theorem final (hO : Ok m) (c : Dev nD) : (dats m hO 0 c).arrAt 2 (cfgM m hO).N = Gk m c :=
  final_a (adm m hO) (dats m hO 0 c) (Gk m c) (flushed_eq m hO c) (cover m hO)

/-- The run, read: the result array at the specification, the arguments unchanged. -/
theorem run (hO : Ok m) : θ_run defs (onTc (τ := τ) (main (F := Ideal))) ⟨m, fun _ => 0, ρ⟩ fun r => ∀ c : Dev nD,
      r.2.mem ((c.tc : Thread nD τ).loc main_v10) = Gk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 2).trans (final m hO c),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩)
    (run_main m ρ hO)

end Cert.KernelIdeal.OutValue
end
-- ==== Proof.RefRead.lean ====
/- The reference's result read at an index: the batched contraction over the last axis of the input and of the
   table row the (wrapped, clamped) task id names. -/
import proofs.«413383_j1623497638479_3_alg».proof.Proof.Gen.ReferenceIdeal.Read

noncomputable section

namespace Cert.ReferenceIdeal.RefValue

open Idealize.ShloMosaic Idealize.ShloMosaic.ValueIdx Cert.ReferenceIdeal Cert.ReferenceIdeal.Gen
open Cert.ReferenceIdeal.Read

/-- The row of the table the reference reads for batch entry b: the task id with the negative wrap, read signed and
    clamped into [0, 15]. -/
def refRow (x1 : IVec S32 32) (b : Fin 32) : Fin 16 :=
  ⟨min (Scalar.select (IntOp.cmpi .slt (x1 (ix1 b)) 0#32) (IntOp.addi (x1 (ix1 b)) 16#32) (x1 (ix1 b))).toInt.toNat 15, by omega⟩

/-- The row gather read at (b, c): the operand's row named by the start index at (b, 0), read signed and clamped
    into [0, 15], at column c. Axis 0 of the operand is collapsed and start-indexed (its slice size one, so the
    clamp is into [0, 16 - 1]); axis 1 is the one offset axis, read whole. -/
theorem gather_row_apply {α : Type} (x : S16x1048576.Idx → α) (idx : IVec S32x1 32) (b : Fin 32) (c : Fin 1048576) :
    Host.gather gather_S16x1048576_S32x1_S32x1048576_1_0_n_n_0_1_11048576 x idx (ix2 b c)
      = x (ix2 ⟨min (idx (ix2 b (0 : Fin 1))).toInt.toNat 15, by omega⟩ c) := by
  unfold Host.gather
  congr 1
  funext a
  refine Fin.ext ?_
  match a with
  | ⟨0, _⟩ =>
    -- the collapsed axis: the clamped start index, no batching and no offset coordinate
    show GatherDims.start _ (ix2 b c) idx 0 + GatherDims.batchCoord _ (ix2 b c) 0 + GatherDims.offCoord _ (ix2 b c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S16x1048576_S32x1_S32x1048576_1_0_n_n_0_1_11048576.startIndexMap from List.mem_singleton.mpr rfl)]
    -- the start index is read at the result's batch coordinate b, component 0 of the index vector
    have hsi : gather_S16x1048576_S32x1_S32x1048576_1_0_n_n_0_1_11048576.siIdx (ix2 b c)
        ⟨List.idxOf (0 : Fin 2) gather_S16x1048576_S32x1_S32x1048576_1_0_n_n_0_1_11048576.startIndexMap,
          List.idxOf_lt_length_iff.2 (List.mem_singleton.mpr rfl)⟩ = ix2 b (0 : Fin 1) := by
      funext e; refine Fin.ext ?_
      match e with
      | ⟨0, _⟩ => rfl
      | ⟨1, _⟩ => rfl
    rw [hsi]
    rfl
  | ⟨1, _⟩ =>
    -- the offset axis: no start index names it, so the slice starts at 0, and the offset coordinate is c
    show GatherDims.start _ (ix2 b c) idx 1 + GatherDims.batchCoord _ (ix2 b c) 1 + GatherDims.offCoord _ (ix2 b c) 1 = _
    rw [GatherDims.batchCoord_eq_zero _ _ _ List.not_mem_nil]
    unfold GatherDims.start
    rw [dif_neg (show ¬(1 : Fin 2) ∈ gather_S16x1048576_S32x1_S32x1048576_1_0_n_n_0_1_11048576.startIndexMap by decide)]
    unfold GatherDims.offCoord
    rw [dif_pos (show (1 : Fin 2) ∈ gather_S16x1048576_S32x1_S32x1048576_1_0_n_n_0_1_11048576.sKept by decide)]
    simp only [Nat.zero_add]
    rfl

variable {F : FTy → Type} [FloatOps F]

/-- The start-index column at row b: the task id, plus 16 when it is negative (the wrap of a negative index). -/
theorem idxcol_apply (x1 : IVec S32 32) (b : Fin 32) :
    val_main_v5 (F := F) x1 (ix2 b (0 : Fin 1))
      = Scalar.select (IntOp.cmpi .slt (x1 (ix1 b)) 0#32) (IntOp.addi (x1 (ix1 b)) 16#32) (x1 (ix1 b)) := by
  have h5 : idx_main_v5 (ix2 b (0 : Fin 1)) = ix1 b := by
    funext a; match a with | ⟨0, _⟩ => rfl
  rw [val_main_v5_apply, h5, val_main_v4_apply, val_main_v1_apply, val_main_v3_apply, val_main_v0_apply,
    val_main_c_apply, val_main_v2_apply, val_main_c_0_apply]

/-- The gathered table at (b, c): row refRow x1 b of the table, column c. -/
theorem val_main_v6_apply (x1 : IVec S32 32) (x2 : FVec F S16x1048576 .f32) (b : Fin 32) (c : Fin 1048576) :
    val_main_v6 (F := F) x1 x2 (ix2 b c) = x2 (ix2 (refRow x1 b) c) := by
  unfold val_main_v6
  rw [gather_row_apply]
  congr 2
  refine Fin.ext ?_
  show min (val_main_v5 (F := F) x1 (ix2 b (0 : Fin 1))).toInt.toNat 15 = _
  rw [idxcol_apply]
  rfl

/-- The reference's result at (b, r, q): the sum over k of the input at (b, r, k) times the table's row
    refRow x1 b at column q * 1024 + k (the reshape of a row to [1024, 1024] read at (q, k)). -/
theorem ref_apply (x0 : FVec Ideal S32x1024x1024 .f32) (x1 : IVec S32 32) (x2 : FVec Ideal S16x1048576 .f32)
    (b : Fin 32) (r q : Fin 1024) :
    Cert.ReferenceIdeal.Read.val_main_v8 (F := Ideal) x0 x1 x2 (ix3 b r q)
      = ∑ k : Fin 1024, x0 (ix3 b r k) * x2 (ix2 (refRow x1 b) ⟨q.val * 1024 + k.val, by have := q.isLt; have := k.isLt; omega⟩) := by
  rw [val_main_v8_apply]
  refine Finset.sum_congr rfl fun k _ => ?_
  have hl : lidx_main_v8 (ix3 b r q) k = ix3 b r k := by
    funext a; match a with | ⟨0, _⟩ => rfl | ⟨1, _⟩ => rfl | ⟨2, _⟩ => rfl
  have hr : ridx_main_v8 (ix3 b r q) k = ix3 b q k := by
    funext a; match a with | ⟨0, _⟩ => rfl | ⟨1, _⟩ => rfl | ⟨2, _⟩ => rfl
  -- the reshape: (b, q, k) of [32, 1024, 1024] is (b, q * 1024 + k) of [32, 1048576]
  have h7 : idx_main_v7 (ix3 b q k)
      = ix2 b (⟨q.val * 1024 + k.val, by have := q.isLt; have := k.isLt; omega⟩ : Fin 1048576) := by
    funext a; refine Fin.ext ?_
    have hb := b.isLt; have hq := q.isLt; have hk := k.isLt
    match a with
    | ⟨0, _⟩ => show ((b.val * 1024 + q.val) * 1024 + k.val) / 1048576 = b.val; omega
    | ⟨1, _⟩ => show ((b.val * 1024 + q.val) * 1024 + k.val) % 1048576 = q.val * 1024 + k.val; omega
  rw [hl, hr, val_main_v7_apply, h7, val_main_v6_apply]

end Cert.ReferenceIdeal.RefValue

end
-- ==== Proof.Bridge.lean ====
/-
  The two programs compute one function.

  The reference reads, for batch entry b, the weight row named by the task id after the negative-index wrap and the
  gather's clamp into [0, 15]; the kernel reads the row named by the id clipped to [0, 15]. Where every task id is in
  [0, 16) — the precondition — the wrap, the clamp and the clip all leave the id as it is, so both read row id(b), and
  the reference's batched product, entry by entry the sum ∑ₖ x[b, r, k] · W[id(b), q · 1024 + k], is the kernel's result.
-/
import proofs.«413383_j1623497638479_3_alg».proof.Defs
import proofs.«413383_j1623497638479_3_alg».proof.Proof.OutValue
import proofs.«413383_j1623497638479_3_alg».proof.Proof.RefRead
import proofs.«413383_j1623497638479_3_alg».proof.Proof.PreRange
import proofs.«413383_j1623497638479_3_alg».proof.Proof.Spec

set_option maxRecDepth 16384

noncomputable section
namespace Cert.Proof.Bridge
open Idealize.ShloMosaic Idealize.ShloMosaic.TcCoe Idealize.SL.Sem Idealize.ShloMosaic.ValueIdx

/-- The reference's result array is the specification at the reference's row choice. -/
theorem ref_eq_G (x0 : FVec Ideal Cert.ReferenceIdeal.S32x1024x1024 .f32) (x1 : IVec Cert.ReferenceIdeal.S32 32)
    (x2 : FVec Ideal Cert.ReferenceIdeal.S16x1048576 .f32) :
    Cert.ReferenceIdeal.Read.val_main_v8 (F := Ideal) x0 x1 x2 = Cert.Spec.G x0 (Cert.ReferenceIdeal.RefValue.refRow x1) x2 := by
  funext i
  obtain ⟨b, r, q, rfl⟩ : ∃ (b : Fin 32) (r q : Fin 1024), i = ix3 b r q := ⟨i 0, i 1, i 2, eq_ix3 i⟩
  rw [Cert.ReferenceIdeal.RefValue.ref_apply]
  rfl

/-- The two spellings of the rank-1 index at b. -/
theorem ofFin_eq_ix1 (b : Fin 32) : (Shape.Idx.ofFin b : (⟨1, ![32]⟩ : Shape).Idx) = ix1 b := by
  funext a
  obtain rfl : a = 0 := Subsingleton.elim _ _
  rfl

open Cert.KernelIdeal Cert.KernelIdeal.Gen in
/-- Under the precondition the kernel and the reference read the same weight row for every batch entry. -/
theorem rows_agree [Cert.Pre_finite_inputs.Facts] (m : (ℓ : Loc nD τ sig) → Buf (Elt Ideal) ℓ) (h : Cert.Pre_KernelIdeal m) (b : Fin 32) :
    Cert.KernelIdeal.Blocks.krow m b
      = Cert.ReferenceIdeal.RefValue.refRow (m (((0 : Dev nD).tc : Thread nD τ).loc main_arg1)) b := by
  have hlt : (m (((0 : Dev nD).tc : Thread nD τ).loc main_arg1) (ix1 b)).toNat < 16 :=
    Cert.Proof.PreRange.lt16_of_pre _ _ _ (h 0) (ix1 b)
  apply Fin.ext
  show (Cert.KernelIdeal.Tab.tid m (Shape.Idx.ofFin b)).toNat
    = min (Scalar.select (IntOp.cmpi .slt (m (((0 : Dev nD).tc : Thread nD τ).loc main_arg1) (ix1 b)) 0#32)
        (IntOp.addi (m (((0 : Dev nD).tc : Thread nD τ).loc main_arg1) (ix1 b)) 16#32)
        (m (((0 : Dev nD).tc : Thread nD τ).loc main_arg1) (ix1 b))).toInt.toNat 15
  rw [Cert.Proof.PreRange.wrap_id _ hlt, Cert.Proof.PreRange.clamp_id _ hlt]
  have e : Cert.KernelIdeal.Tab.tid m (Shape.Idx.ofFin b) = m (((0 : Dev nD).tc : Thread nD τ).loc main_arg1) (ix1 b) := by
    unfold Cert.KernelIdeal.Tab.tid
    simp only [minsi, maxsi, broadcastInDim, constantI]
    rw [ofFin_eq_ix1]
    exact Cert.Proof.PreRange.clip_id _ hlt
  rw [e]

end Cert.Proof.Bridge
end
-- ==== Proof.lean ====
/-
  The certificate of a per-task linear layer: out[b] = x[b] · W[task_id[b]]ᵀ for a batch of 32 matrices x[b] of shape
  1024 × 1024 and a table W of 16 weight matrices stored flat, under the precondition that x and W are finite and every
  task id lies in [0, 16).

  The kernel clips the ids to [0, 15], visits the batch rows in the order of a stable argsort of the clipped ids (so that
  rows sharing a task follow one another), and at each grid point multiplies one batch matrix with the weight matrix of
  its clipped id, writing the product to that batch row of the output; the two orderings are passed as scalar tables that
  the windows' index maps read. The reference gathers W[task_id] (with the negative-index wrap and the gather's clamp),
  reshapes and takes one batched product.

    frames      — the kernel's frame holds for every launched ids: the first table is a permutation of the 32 rows and
                  the second holds clipped ids, so every block the index maps name lies inside its array (Tables);
                  the reference has no kernel, its frame is its run with the result dropped.
    preserves   — the idealization rewrote nothing.
    algebraic   — the argsort being a permutation, the blocks the points write are distinct and cover the output, and
                  block perm t is the product for batch row perm t (OutValue): the kernel's output is the
                  specification at the clipped ids; the reference's is the specification at the wrapped and clamped ids
                  (RefRead); under the precondition both are the ids themselves (Bridge). No algebraic law is
                  needed: both sides take the same products in the same order.
-/
import proofs.«413383_j1623497638479_3_alg».proof.Defs
import proofs.«413383_j1623497638479_3_alg».proof.Proof.Gen.Kernel
import proofs.«413383_j1623497638479_3_alg».proof.Proof.Gen.Kernel.Skeleton
import proofs.«413383_j1623497638479_3_alg».proof.Proof.Gen.Kernel.Launch
import proofs.«413383_j1623497638479_3_alg».proof.Proof.Gen.Kernel.Points
import proofs.«413383_j1623497638479_3_alg».proof.Proof.Gen.Kernel.Frame
import proofs.«413383_j1623497638479_3_alg».proof.Proof.Gen.KernelIdeal
import proofs.«413383_j1623497638479_3_alg».proof.Proof.Gen.KernelIdeal.Skeleton
import proofs.«413383_j1623497638479_3_alg».proof.Proof.Gen.KernelIdeal.Launch
import proofs.«413383_j1623497638479_3_alg».proof.Proof.Gen.KernelIdeal.Points
import proofs.«413383_j1623497638479_3_alg».proof.Proof.Gen.KernelIdeal.Frame
import proofs.«413383_j1623497638479_3_alg».proof.Proof.Gen.ReferenceIdeal
import proofs.«413383_j1623497638479_3_alg».proof.Proof.Gen.Pre_finite_inputs
import proofs.«413383_j1623497638479_3_alg».proof.Proof.Gen.ReferenceIdeal.Run
import proofs.«413383_j1623497638479_3_alg».proof.Proof.Gen.ReferenceIdeal.Read
import proofs.«413383_j1623497638479_3_alg».proof.Proof.Tables
import proofs.«413383_j1623497638479_3_alg».proof.Proof.TablesBits
import proofs.«413383_j1623497638479_3_alg».proof.Proof.OutValue
import proofs.«413383_j1623497638479_3_alg».proof.Proof.Bridge
import Idealize.ShloMosaic.Adequacy
import Idealize.ShloMosaic.Init

noncomputable section

namespace Cert.Proof

open Idealize.ShloMosaic Idealize.ShloMosaic.TcCoe Idealize.SL.Sem

namespace Claims

/-- The word-level kernel runs and leaves its arguments as they were, whatever the ids. -/
theorem frame_k : Cert.frame_Kernel := fun m ρ _ => Cert.Kernel.Gen.frame m ρ (Cert.Kernel.Tab.ok m)

/-- The same for the idealized kernel. -/
theorem frame_ki : Cert.frame_KernelIdeal := fun m ρ _ => Cert.KernelIdeal.Gen.frame m ρ (Cert.KernelIdeal.Tab.ok m)

/-- The reference's frame is its run with the result dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the specification at the task ids themselves, and with the ids as their second result. -/
theorem algebraic : Cert.algebraic_KernelIdeal_ReferenceIdeal := by
  intro m ρ m' ρ' hpre hagree
  refine ⟨fun c => Cert.KernelIdeal.OutValue.Gk m c,
    fun c => m ((c.tc : Thread Cert.KernelIdeal.nD Cert.KernelIdeal.τ).loc Cert.KernelIdeal.main_arg1), ?_, ?_⟩
  · exact (θ_run Cert.KernelIdeal.defs _ _).mono
      (fun r h c => ⟨(h c).1, (h c).2.2.1, (h c).2.1, (h c).2.2.1, (h c).2.2.2⟩)
      (Cert.KernelIdeal.OutValue.run m ρ (Cert.KernelIdeal.Tab.ok m))
  · refine (θ_run Cert.ReferenceIdeal.defs _ _).mono
      (fun r h c => ⟨?_, (h c).2.1.trans (hagree c).2.1, (h c).2.2.1, (h c).2.2.2.1, (h c).2.2.2.2⟩)
      (Cert.ReferenceIdeal.Value.run (F := Ideal) m' ρ')
    obtain rfl : c = 0 := Subsingleton.elim _ _
    rw [(h 0).1, Cert.ReferenceIdeal.Read.val_main_v8_eq, Cert.Proof.Bridge.ref_eq_G, (hagree 0).1, (hagree 0).2.1, (hagree 0).2.2]
    unfold Cert.KernelIdeal.OutValue.Gk
    exact (Cert.Spec.G_congr _ (Cert.Proof.Bridge.rows_agree m hpre) _).symm

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
